-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32 : Shape := ⟨2, ![32, 32]⟩
abbrev S32x256x256 : Shape := ⟨3, ![32, 256, 256]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn {F : FTy → Type} [FloatOps F] (main_arg0 : FVec F S32x32 .f32) (main_arg1 : FVec F S32x256x256 .f32) : IVec S_ 1 :=
  let main_v0 : FVec F S32x32 .f32 := Host.absf main_arg0
  let main_cst : FVec F S_ .f32 := constant S_ .f32 0x7F800000#32
  let main_v1 : FVec F S32x32 .f32 := broadcastInDim S32x32 ![] bcast_S_S32x32 main_cst
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  main_v8
-- ==== Kernel.lean ====
abbrev S32x32 : Shape := ⟨2, ![32, 32]⟩
abbrev S32x256x256 : Shape := ⟨3, ![32, 256, 256]⟩
abbrev S32x65536 : Shape := ⟨2, ![32, 65536]⟩
abbrev S32x8192 : Shape := ⟨2, ![32, 8192]⟩

abbrev nBuf : Space → Nat
  | .hbm => 5
  | .vmem => 5
  | .smem => 0
  | _ => 0

abbrev bufTy : (tb : Table) → Fin (tcTables nBuf tb) → BufTy
  | .hbm, ⟨0, _⟩ => ⟨S32x32, .f32⟩
  | .hbm, ⟨1, _⟩ => ⟨S32x256x256, .f32⟩
  | .hbm, ⟨2, _⟩ => ⟨S32x65536, .f32⟩
  | .hbm, ⟨3, _⟩ => ⟨S32x65536, .f32⟩
  | .hbm, ⟨4, _⟩ => ⟨S32x256x256, .f32⟩
  | .local _ .vmem, ⟨0, _⟩ => ⟨S32x32, .f32⟩
  | .local _ .vmem, ⟨1, _⟩ => ⟨S32x8192, .f32⟩
  | .local _ .vmem, ⟨2, _⟩ => ⟨S32x8192, .f32⟩
  | .local _ .vmem, ⟨3, _⟩ => ⟨S32x8192, .f32⟩
  | .local _ .vmem, ⟨4, _⟩ => ⟨S32x8192, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x256x256_S32x65536 : S32x256x256.ShapeCasts S32x65536
  inb_S32x32_S32x32_0_0 : ∀ a, (![0, 0] : Fin 2 → Nat) a + S32x32.size a ≤ S32x32.size a
  h_S32x32 : 0 < S32x32.numel
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  shapeCasts_S32x65536_S32x256x256 : S32x65536.ShapeCasts S32x256x256
  dot_S32x32_S32x8192_S32x8192_0_0_1_1_n_n_wf : DotDims.WF S32x32 S32x8192 S32x8192 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S32x65536.size a
  hwx0_1 : ∀ i : grid0.Coords, EltTy.bits .f32 = 32 ∨ (Rect.block (s := S32x65536) S32x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8192.size a ≤ S32x65536.size a
  hwx0_2 : ∀ i : grid0.Coords, EltTy.bits .f32 = 32 ∨ (Rect.block (s := S32x65536) S32x8192.size (cc0_transform_2 i) (hinb0_2 i)).WholeWords (EltTy.packing .f32)

variable [Facts₀]

def dot_S32x32_S32x8192_S32x8192_0_0_1_1_n_n : DotDims S32x32 S32x8192 S32x8192 where
  lhsContracting := [0]
  rhsContracting := [0]
  lhsNonContracting := [1]
  rhsNonContracting := [1]
  lhsBatch := []
  rhsBatch := []
  wf := dot_S32x32_S32x8192_S32x8192_0_0_1_1_n_n_wf

abbrev win0_0 : Pipeline.Window sig grid0 :=
  Pipeline.Window.ofSpec (Memref.whole main_arg0) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x32 : Shape := ⟨2, ![32, 32]⟩
abbrev S32x256x256 : Shape := ⟨3, ![32, 256, 256]⟩
abbrev S32x32x1x1 : Shape := ⟨4, ![32, 32, 1, 1]⟩
abbrev S32x1x256x256 : Shape := ⟨4, ![32, 1, 256, 256]⟩
abbrev S32x32x256x256 : Shape := ⟨4, ![32, 32, 256, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S32x32, .f32⟩
  | .hbm, ⟨1, _⟩ => ⟨S32x256x256, .f32⟩
  | .hbm, ⟨2, _⟩ => ⟨S32x32x1x1, .f32⟩
  | .hbm, ⟨3, _⟩ => ⟨S32x1x256x256, .f32⟩
  | .hbm, ⟨4, _⟩ => ⟨S32x32x256x256, .f32⟩
  | .hbm, ⟨5, _⟩ => ⟨S32x32x256x256, .f32⟩
  | .hbm, ⟨6, _⟩ => ⟨S32x32x256x256, .f32⟩
  | .hbm, ⟨7, _⟩ => ⟨S_, .f32⟩
  | .hbm, ⟨8, _⟩ => ⟨S32x256x256, .f32⟩
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S32x32_S32x32x1x1_0_1 : S32x32.BroadcastsInDim S32x32x1x1 (![0, 1] : Fin 2 → Fin S32x32x1x1.rank)
  bcast_S32x256x256_S32x1x256x256_0_2_3 : S32x256x256.BroadcastsInDim S32x1x256x256 (![0, 2, 3] : Fin 3 → Fin S32x1x256x256.rank)
  bcast_S32x32x1x1_S32x32x256x256_0_1_2_3 : S32x32x1x1.BroadcastsInDim S32x32x256x256 (![0, 1, 2, 3] : Fin 4 → Fin S32x32x256x256.rank)
  bcast_S32x1x256x256_S32x32x256x256_0_1_2_3 : S32x1x256x256.BroadcastsInDim S32x32x256x256 (![0, 1, 2, 3] : Fin 4 → Fin S32x32x256x256.rank)
  reducesTo_S32x32x256x256_S32x256x256_d0 : S32x32x256x256.ReducesTo [0] S32x256x256
  h_S_ : 0 < S_.numel

variable [Facts₀]

class Facts : Prop extends Facts₀ where

variable [Facts]
-- ==== Proof.Payload.lean ====
/-
  What the kernel body stores, entry by entry.

  The body loads the 32 × 32 weights `x₀` and a 32 × 8192 block `x₁` of the flattened bank and stores their product with
  the first axis of BOTH contracted, accumulated from zero: entry (b, n) is `∑ e, x₀ (e, b) · x₁ (e, n)` — the weights
  enter transposed. At the ideal values the product is that exact sum; the zero accumulator adds nothing.
-/
import proofs.«175849_g14602888806852_cont_week2b_1353_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Idealize.ShloMosaic Idealize.ShloMosaic.ValueIdx
open scoped BigOperators

/-! ### The contraction's index maps, coordinate by coordinate: both operands are read at (contracted, free) -/

theorem lhs_axis0 (j : S32x8192.Idx) (k : dot_S32x32_S32x8192_S32x8192_0_0_1_1_n_n.contr.Idx) :
    (dot_S32x32_S32x8192_S32x8192_0_0_1_1_n_n.lhsIdx j k 0 : ℕ) = k ⟨0, by decide⟩ := by
  simp [DotDims.lhsIdx, dot_S32x32_S32x8192_S32x8192_0_0_1_1_n_n]; rfl
theorem lhs_axis1 (j : S32x8192.Idx) (k : dot_S32x32_S32x8192_S32x8192_0_0_1_1_n_n.contr.Idx) :
    (dot_S32x32_S32x8192_S32x8192_0_0_1_1_n_n.lhsIdx j k 1 : ℕ) = j 0 := by
  simp [DotDims.lhsIdx, dot_S32x32_S32x8192_S32x8192_0_0_1_1_n_n]; rfl
theorem rhs_axis0 (j : S32x8192.Idx) (k : dot_S32x32_S32x8192_S32x8192_0_0_1_1_n_n.contr.Idx) :
    (dot_S32x32_S32x8192_S32x8192_0_0_1_1_n_n.rhsIdx j k 0 : ℕ) = k ⟨0, by decide⟩ := by
  simp [DotDims.rhsIdx, dot_S32x32_S32x8192_S32x8192_0_0_1_1_n_n]; rfl
theorem rhs_axis1 (j : S32x8192.Idx) (k : dot_S32x32_S32x8192_S32x8192_0_0_1_1_n_n.contr.Idx) :
    (dot_S32x32_S32x8192_S32x8192_0_0_1_1_n_n.rhsIdx j k 1 : ℕ) = j 1 := by
  simp [DotDims.rhsIdx, dot_S32x32_S32x8192_S32x8192_0_0_1_1_n_n]; rfl

/-- The stored value at (b, n): the sum over the contracted coordinate `e` of weight (e, b) times block entry (e, n). -/
theorem stored_apply (x₀ : Vec Ideal S32x32 .f32) (x₁ : Vec Ideal S32x8192 .f32) (b : Fin 32) (n : Fin 8192) :
    k0_pay1 (F := Ideal) x₀ x₁ (ix2 b n) = ∑ e : Fin 32, x₀ (ix2 e b) * x₁ (ix2 e n) := by
  unfold k0_pay1
  show FloatOps.matmul (F := Ideal) dot_S32x32_S32x8192_S32x8192_0_0_1_1_n_n none x₀
      (shapeCast S32x8192 x₁ shapeCasts_S32x8192_S32x8192 : FVec Ideal S32x8192 .f32)
      (constant S32x8192 .f32 0x00000000#32) (ix2 b n) = _
  rw [shapeCast_self, Ideal.matmul_constant_zero_apply,
    ← Equiv.sum_comp (contrEquiv1 dot_S32x32_S32x8192_S32x8192_0_0_1_1_n_n 32 rfl rfl).symm]
  refine Finset.sum_congr rfl fun e _ => ?_
  have ce := contrEquiv1_symm_val dot_S32x32_S32x8192_S32x8192_0_0_1_1_n_n 32 rfl rfl e
  have hl : dot_S32x32_S32x8192_S32x8192_0_0_1_1_n_n.lhsIdx (ix2 b n)
      ((contrEquiv1 dot_S32x32_S32x8192_S32x8192_0_0_1_1_n_n 32 rfl rfl).symm e) = ix2 e b := by
    funext ax; apply Fin.ext
    match ax with
    | ⟨0, _⟩ => exact (lhs_axis0 _ _).trans ce
    | ⟨1, _⟩ => exact lhs_axis1 _ _
  have hr : dot_S32x32_S32x8192_S32x8192_0_0_1_1_n_n.rhsIdx (ix2 b n)
      ((contrEquiv1 dot_S32x32_S32x8192_S32x8192_0_0_1_1_n_n 32 rfl rfl).symm e) = ix2 e n := by
    funext ax; apply Fin.ext
    match ax with
    | ⟨0, _⟩ => exact (rhs_axis0 _ _).trans ce
    | ⟨1, _⟩ => exact rhs_axis1 _ _
  rw [hl, hr]

end Cert.KernelIdeal.BlockValue

end
-- ==== Proof.Spec.lean ====
/-
  The superposition of a bank of images, and its flattened form.

  From weights `sw[e, b]` (32 × 32) and a bank `W[e, p, q]` (32 images of 256 × 256) the mixed image number `b` is
    `mix sw W (b, p, q) = ∑ e, sw (e, b) · W (e, p, q)`.
  Flattening every image row after row into one row of 65536 pixels (pixel (p, q) at column 256 p + q) turns the bank into
  a 32 × 65536 matrix `W₂`, and the same sum over the flattened bank is
    `mixFlat sw W₂ (b, n) = ∑ e, sw (e, b) · W₂ (e, n)`,
  the product of the transposed weights with the flattened bank. Unflattening `mixFlat` of the flattened bank gives back
  `mix`: both reshapes only rename positions, the sums are the same sums term by term. Nothing is regrouped, so the
  statement holds on all extended reals with no finiteness assumption.
-/
import Idealize.ShloMosaic.PureOps.Ideal.Laws
import Idealize.ShloMosaic.Lib.ValueIdx
import Idealize.ShloMosaic.Lib.Pipeline.Value

noncomputable section

namespace Superposition

open Idealize.ShloMosaic Idealize.ShloMosaic.ValueIdx
open scoped BigOperators

/-- The weights: 32 superposition coordinates by 32 batch entries. -/
abbrev Sw : Shape := ⟨2, ![32, 32]⟩
/-- The bank: 32 images of 256 × 256. -/
abbrev Bank : Shape := ⟨3, ![32, 256, 256]⟩
/-- The bank with each image flattened to one row. -/
abbrev Flat : Shape := ⟨2, ![32, 65536]⟩

/-- Mixed image `b` at pixel (p, q): the weighted sum of the bank's images at that pixel. -/
def mix (sw : Sw.Idx → EReal) (W : Bank.Idx → EReal) : Bank.Idx → EReal :=
  fun i => ∑ e : Fin 32, sw (ix2 e (i 0)) * W (ix3 e (i 1) (i 2))

/-- The same over a flattened bank: the transposed weights times the 32 × 65536 matrix. -/
def mixFlat (sw : Sw.Idx → EReal) (W₂ : Flat.Idx → EReal) : Flat.Idx → EReal :=
  fun j => ∑ e : Fin 32, sw (ix2 e (j 0)) * W₂ (ix2 e (j 1))

/-- Pixel (p, q) of a 256 × 256 image sits at column 256 p + q of its flattening. -/
def col (p q : Fin 256) : Fin 65536 := ⟨p.val * 256 + q.val, by omega⟩

/-- The flattened bank at (e, 256 p + q) is the bank at (e, p, q). -/
theorem flatten_apply (W : Bank.Idx → EReal) (h : Bank.ShapeCasts Flat) (e : Fin 32) (p q : Fin 256) :
    shapeCast Flat W h (ix2 e (col p q)) = W (ix3 e p q) :=
  shapeCast_apply W h _ _ (by
    rw [Shape.rowMajor_val_three, Shape.rowMajor_val_two]
    show (e.val * 256 + p.val) * 256 + q.val = e.val * 65536 + (p.val * 256 + q.val)
    omega)

/-- A 32 × 65536 matrix unflattened, at (b, p, q), is the matrix at (b, 256 p + q). -/
theorem unflatten_apply (Y : Flat.Idx → EReal) (h : Flat.ShapeCasts Bank) (b : Fin 32) (p q : Fin 256) :
    shapeCast Bank Y h (ix3 b p q) = Y (ix2 b (col p q)) :=
  shapeCast_apply Y h _ _ (by
    rw [Shape.rowMajor_val_three, Shape.rowMajor_val_two]
    show b.val * 65536 + (p.val * 256 + q.val) = (b.val * 256 + p.val) * 256 + q.val
    omega)

/-- Flatten the bank, mix, unflatten: that is mixing the bank itself. -/
theorem unflatten_mixFlat (sw : Sw.Idx → EReal) (W : Bank.Idx → EReal) (h₁ : Bank.ShapeCasts Flat) (h₂ : Flat.ShapeCasts Bank) :
    shapeCast Bank (mixFlat sw (shapeCast Flat W h₁)) h₂ = mix sw W := by
  funext i
  obtain ⟨b, p, q, rfl⟩ : ∃ (b : Fin 32) (p q : Fin 256), i = ix3 b p q := ⟨i 0, i 1, i 2, eq_ix3 i⟩
  rw [unflatten_apply]
  show ∑ e : Fin 32, sw (ix2 e b) * shapeCast Flat W h₁ (ix2 e (col p q)) = ∑ e : Fin 32, sw (ix2 e b) * W (ix3 e p q)
  exact Finset.sum_congr rfl fun e _ => by rw [flatten_apply]

end Superposition

end
-- ==== Proof.KernelValue.lean ====
/-
  What the kernel leaves in its result, as one function of its arguments.

  The program flattens the bank to a 32 × 65536 matrix `W₂` (a reshape), runs its one kernel over 8 grid points, and
  unflattens the kernel's 32 × 65536 output (a reshape). At point `t` the kernel reads all the weights and columns
  `8192 t … 8192 t + 8191` of `W₂`, and writes the same columns of the output: entry (b, n) of the block it writes is
  `∑ e, sw (e, b) · W₂ (e, 8192 t + n)` — entry (b, 8192 t + n) of `mixFlat sw W₂`. The eight column blocks tile the
  output (column n lies in block n / 8192), so after the run the output array IS `mixFlat sw W₂`, and its unflattening is
  `mix sw W`.
-/
import proofs.«175849_g14602888806852_cont_week2b_1353_2_alg».proof.Proof.Gen.KernelIdeal.Frame
import proofs.«175849_g14602888806852_cont_week2b_1353_2_alg».proof.Proof.Payload
import proofs.«175849_g14602888806852_cont_week2b_1353_2_alg».proof.Proof.Spec
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue Idealize.ShloMosaic Idealize.ShloMosaic.TcCoe
  Idealize.ShloMosaic.ValueIdx Superposition
open Idealize.SL.Sem
open Idealize.ShloMosaic.Pipeline (Dat Cfg Window)
open scoped BigOperators

variable (m : (ℓ : Loc nD τ sig) → Buf (Elt Ideal) ℓ) (ρ : Dev nD → PrngReg)

theorem origin : (![0, 0] : Fin 2 → Nat) = fun _ => 0 := funext fun a => by fin_cases a <;> rfl

/-- Where the blocks sit, at every grid point: the weights' block is the whole 32 × 32 array; the bank's block and the
    output's block are the same column block, in block row 0; there are 8 column blocks. -/
theorem block_indices : ∀ t : Fin cfg0.N, win0_0.index t (0 : Fin 2) = 0 ∧ win0_0.index t (1 : Fin 2) = 0
    ∧ win0_1.index t (0 : Fin 2) = 0 ∧ win0_1.index t (1 : Fin 2) = win0_2.index t (1 : Fin 2)
    ∧ win0_2.index t (0 : Fin 2) = 0 ∧ win0_2.index t (1 : Fin 2) ≤ 7 :=
  (by decide +kernel : ∀ t : Fin grid0.N, _)

/-- Every one of the 8 column blocks is some grid point's. -/
theorem every_block : ∀ q : Fin 8, ∃ t : Fin cfg0.N, win0_2.index t = ![0, q.val] :=
  (by decide +kernel : ∀ q : Fin 8, ∃ t : Fin grid0.N, win0_2.index t = ![0, q.val])

/-- One entry of one block: if the loaded weights are `A`'s entries in column `i 0` and the loaded bank block holds `B`'s
    entries in column `i 1`, the stored entry is `mixFlat A B` at `i`. -/
theorem entry_of_block (A : Vec Ideal S32x32 .f32) (B : Vec Ideal S32x65536 .f32)
    (x₀ : Vec Ideal S32x32 .f32) (x₁ : Vec Ideal S32x8192 .f32) (y : S32x8192.Idx) (i : S32x65536.Idx)
    (h₀ : ∀ e : Fin 32, x₀ (ix2 e (y 0)) = A (ix2 e (i 0)))
    (h₁ : ∀ e : Fin 32, x₁ (ix2 e (y 1)) = B (ix2 e (i 1))) :
    k0_pay1 (F := Ideal) x₀ x₁ y = mixFlat A B i := by
  obtain ⟨b, n, rfl⟩ : ∃ (b : Fin 32) (n : Fin 8192), y = ix2 b n := ⟨y 0, y 1, eq_ix2 y⟩
  rw [stored_apply]
  exact Finset.sum_congr rfl fun e _ => congrArg₂ (· * ·) (h₀ e) (h₁ e)

/-- What point `t` writes back is block `t` of `mixFlat` of the weights and the flattened bank as the kernel finds them:
    a block's coordinate is its block index times the block's extent plus the coordinate inside the block. -/
theorem written_back (c : Dev nD) (t : Fin cfg0.N) :
    (dats m 0 c).flushed 2 t = ((cfg0.win 2).blk t).view.read (Elt Ideal) (mixFlat (V m c main_arg0) (V m c main_v0)) := by
  show (cfg0.win 2).cut (grid0.coords t) ((dats m 0 c).after 2 t) = _
  rw [after0_2]
  unfold out0_2
  rw [View.canon_unit_zero origin]
  simp only [View.ld_unit_zero (S := S32x32) origin, View.ld_unit_zero (S := S32x8192) origin]
  obtain ⟨e0, e1, e2, e3, e4, e5⟩ := block_indices t
  funext j
  show k0_pay1 (F := Ideal) (iblk m c 0 t) (iblk m c 1 t) j
    = mixFlat (V m c main_arg0) (V m c main_v0) (((cfg0.win 2).blk t).view.emb j)
  refine entry_of_block (V m c main_arg0) (V m c main_v0) (iblk m c 0 t) (iblk m c 1 t) j (((cfg0.win 2).blk t).view.emb j) (fun e => ?_) (fun e => ?_)
  · show V m c main_arg0 (((cfg0.win 0).blk t).view.emb (ix2 e (j 0))) = V m c main_arg0 (ix2 e ((((cfg0.win 2).blk t).view.emb j) 0))
    refine congrArg (V m c main_arg0) (funext fun a => Fin.ext ?_)
    match a with
    | ⟨0, _⟩ => show win0_0.index t (0 : Fin 2) * 32 + 1 * e.val = e.val; omega
    | ⟨1, _⟩ => show win0_0.index t (1 : Fin 2) * 32 + 1 * (j 0).val = win0_2.index t (0 : Fin 2) * 32 + 1 * (j 0).val; omega
  · show V m c main_v0 (((cfg0.win 1).blk t).view.emb (ix2 e (j 1))) = V m c main_v0 (ix2 e ((((cfg0.win 2).blk t).view.emb j) 1))
    refine congrArg (V m c main_v0) (funext fun a => Fin.ext ?_)
    match a with
    | ⟨0, _⟩ => show win0_1.index t (0 : Fin 2) * 32 + 1 * e.val = e.val; omega
    | ⟨1, _⟩ => show win0_1.index t (1 : Fin 2) * 8192 + 1 * (j 1).val = win0_2.index t (1 : Fin 2) * 8192 + 1 * (j 1).val; omega

/-- An index of the output is in point `t`'s block iff each coordinate is in the block's range on its axis. -/
theorem in_block (t : Fin cfg0.N) (i : S32x65536.Idx) :
    i ∈ ((cfg0.win 2).blk t).view.set ↔ ∀ a : Fin 2, win0_2.index t a * S32x8192.size a ≤ (i a).val ∧ (i a).val < win0_2.index t a * S32x8192.size a + S32x8192.size a := by
  show i ∈ ((View.whole main_v1).slice (win0_2.rect t)).set ↔ _
  rw [View.set_slice_whole, Rect.mem_set_unit]
  exact Iff.rfl

/-- The eight column blocks tile the output: column n is in block n / 8192. -/
theorem blocks_cover (i : S32x65536.Idx) : ∃ t : Fin cfg0.N, (cfg0.win 2).flush t = true ∧ i ∈ ((cfg0.win 2).blk t).view.set := by
  have hi0 : (i 0).val < 32 := (i 0).isLt
  have hi1 : (i 1).val < 65536 := (i 1).isLt
  obtain ⟨t, ht⟩ := every_block ⟨(i 1).val / 8192, by omega⟩
  have q0 : win0_2.index t (0 : Fin 2) = 0 := congrFun ht 0
  have q1 : win0_2.index t (1 : Fin 2) = (i 1).val / 8192 := congrFun ht 1
  refine ⟨t, flush0_2 t, ?_⟩
  rw [in_block]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 8192 ≤ (i 1).val ∧ (i 1).val < win0_2.index t (1 : Fin 2) * 8192 + 8192; omega

/-- The kernel finds, as its second operand, the bank flattened. -/
theorem flat_bank (c : Dev nD) :
    (V m c main_v0 : S32x65536.Idx → EReal) = shapeCast S32x65536 (m ((c : Thread nD τ).loc main_arg1)) shapeCasts_S32x256x256_S32x65536 := by
  show StableHlo.after hostOps0 (fun b => m (c, b)) (Proc.devRef .tc main_v0) = _
  after_results
  rfl

/-- The kernel's output array after the run: `mixFlat` of the weights and the flattened bank. -/
theorem final_flat (c : Dev nD) : (dats m 0 c).arrAt 2 cfg0.N
    = mixFlat (m ((c : Thread nD τ).loc main_arg0)) (shapeCast S32x65536 (m ((c : Thread nD τ).loc main_arg1)) shapeCasts_S32x256x256_S32x65536) := by
  rw [(dats m 0 c).arrAt_eq_of_cover 2 (mixFlat (V m c main_arg0) (V m c main_v0)) (fun t _ => written_back m c t) blocks_cover,
    V_main_arg0 m c, flat_bank m c]

/-- The program's result, the output unflattened: `mix` of the two arguments. -/
theorem result (c : Dev nD) : Pipeline.afterTail₀ cfgs (dats m) 0 (V0 m) [hostOps1] c main_v2
    = mix (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = mixFlat (m ((c : Thread nD τ).loc main_arg0)) (shapeCast S32x65536 (m ((c : Thread nD τ).loc main_arg1)) shapeCasts_S32x256x256_S32x65536) :=
    (Pipeline.withArrays_arr spec0 launch0.win.arr_inj c _ _ 2).trans (final_flat m c)
  show shapeCast S32x256x256 (Pipeline.withArrays (cfgs 0).spec c (V0 m c) (fun w => (dats m 0 c).arrAt w (cfgs 0).N) (Proc.devRef .tc main_v1))
      shapeCasts_S32x65536_S32x256x256 = _
  rw [hw]
  exact unflatten_mixFlat _ _ _ _

/-- Every weakly fair execution of the program terminates with its result at `mix` of the arguments and the arguments
    unchanged. -/
theorem run : θ_run defs (onTc (τ := τ) (main (F := Ideal))) ⟨m, fun _ => 0, ρ⟩ fun r => ∀ c : Dev nD,
      r.2.mem ((c : Thread nD τ).loc main_v2) = mix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (result m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.ArrayValue

end
-- ==== Proof.RefValue.lean ====
/-
  The reference, entry by entry, is the mix.

  The reference broadcasts the weights to (e, b, 1, 1) and then to (e, b, p, q), the bank to (e, 1, p, q) and then to
  (e, b, p, q), multiplies entrywise and sums over `e` starting from zero. Read at (b, p, q): the two broadcasts of the
  weights read (e, b), the two of the bank read (e, p, q), and the initial zero adds nothing, so the entry is
  `∑ e, sw (e, b) · W (e, p, q)`.
-/
import proofs.«175849_g14602888806852_cont_week2b_1353_2_alg».proof.Proof.Gen.ReferenceIdeal.Read
import proofs.«175849_g14602888806852_cont_week2b_1353_2_alg».proof.Proof.Spec

noncomputable section

namespace Cert.ReferenceIdeal.RefValue

open Cert.ReferenceIdeal Cert.ReferenceIdeal.Read Idealize.ShloMosaic Idealize.ShloMosaic.ValueIdx Superposition
open scoped BigOperators

/-- Through both broadcasts the weights are read at (e, b). -/
theorem weight_index (b : Fin 32) (p q : Fin 256) (e : Fin 32) :
    idx_main_v0 (idx_main_v2 (idx_main_v5 (ix3 b p q) e)) = ix2 e b :=
  funext fun a => Fin.ext (by match a with | ⟨0, _⟩ => rfl | ⟨1, _⟩ => rfl)

/-- Through both broadcasts the bank is read at (e, p, q). -/
theorem bank_index (b : Fin 32) (p q : Fin 256) (e : Fin 32) :
    idx_main_v1 (idx_main_v3 (idx_main_v5 (ix3 b p q) e)) = ix3 e p q :=
  funext fun a => Fin.ext (by match a with | ⟨0, _⟩ => rfl | ⟨1, _⟩ => rfl | ⟨2, _⟩ => rfl)

/-- The reference's last stage is the mix of its two arguments. -/
theorem reference_eq_mix (sw : Vec Ideal S32x32 .f32) (W : Vec Ideal S32x256x256 .f32) :
    val_main_v5 (F := Ideal) sw W = mix sw W := by
  funext i
  obtain ⟨b, p, q, rfl⟩ : ∃ (b : Fin 32) (p q : Fin 256), i = ix3 b p q := ⟨i 0, i 1, i 2, eq_ix3 i⟩
  rw [val_main_v5_apply, val_main_cst_apply]
  show Ideal.ofBits .f32 0x00000000#32 + _ = _
  rw [Ideal.ofBits_zero_f32, zero_add]
  refine Finset.sum_congr rfl fun e _ => ?_
  rw [val_main_v4_apply, val_main_v2_apply, val_main_v0_apply, val_main_v3_apply, val_main_v1_apply,
    weight_index, bank_index]
  rfl

end Cert.ReferenceIdeal.RefValue

end
-- ==== Proof.lean ====
/-
  A superposition of a bank of images: the kernel against its reference.

  From weights `sw[e, b]` (32 × 32) and a bank `W[e, p, q]` of 32 images of 256 × 256, both programs compute the 32 mixed
  images `out (b, p, q) = ∑ e, sw (e, b) · W (e, p, q)`.
  The kernel flattens each image to a row of 65536 pixels, multiplies the transposed weights with that 32 × 65536 matrix
  one block of 8192 columns at a time — each block a product accumulated from zero, entry (b, n) the sum over `e` of
  `sw (e, b)` times the block's entry (e, n) — and unflattens the result. The reference broadcasts weights and bank to a
  common (e, b, p, q) array, multiplies entrywise and sums over `e` from zero.
  At the ideal values both results are, entry by entry, the same sum of the same 32 products in the same order: the
  reshapes and broadcasts only rename positions, the column blocks tile the output, and the two zeros add nothing. No
  term is regrouped or distributed, so the equality holds on all extended reals and the finiteness of the inputs is
  never used. The kernel's idealization rewrote nothing, so there is nothing to preserve.
-/
import proofs.«175849_g14602888806852_cont_week2b_1353_2_alg».proof.Defs
import proofs.«175849_g14602888806852_cont_week2b_1353_2_alg».proof.Proof.Gen.Kernel
import proofs.«175849_g14602888806852_cont_week2b_1353_2_alg».proof.Proof.Gen.Kernel.Skeleton
import proofs.«175849_g14602888806852_cont_week2b_1353_2_alg».proof.Proof.Gen.Kernel.Launch
import proofs.«175849_g14602888806852_cont_week2b_1353_2_alg».proof.Proof.Gen.Kernel.Points
import proofs.«175849_g14602888806852_cont_week2b_1353_2_alg».proof.Proof.Gen.Kernel.Frame
import proofs.«175849_g14602888806852_cont_week2b_1353_2_alg».proof.Proof.Gen.KernelIdeal
import proofs.«175849_g14602888806852_cont_week2b_1353_2_alg».proof.Proof.Gen.KernelIdeal.Skeleton
import proofs.«175849_g14602888806852_cont_week2b_1353_2_alg».proof.Proof.Gen.KernelIdeal.Launch
import proofs.«175849_g14602888806852_cont_week2b_1353_2_alg».proof.Proof.Gen.KernelIdeal.Points
import proofs.«175849_g14602888806852_cont_week2b_1353_2_alg».proof.Proof.Gen.KernelIdeal.Frame
import proofs.«175849_g14602888806852_cont_week2b_1353_2_alg».proof.Proof.Gen.ReferenceIdeal
import proofs.«175849_g14602888806852_cont_week2b_1353_2_alg».proof.Proof.Gen.ReferenceIdeal.Run
import proofs.«175849_g14602888806852_cont_week2b_1353_2_alg».proof.Proof.Gen.ReferenceIdeal.Read
import proofs.«175849_g14602888806852_cont_week2b_1353_2_alg».proof.Proof.Gen.Pre_finite_inputs
import proofs.«175849_g14602888806852_cont_week2b_1353_2_alg».proof.Proof.KernelValue
import proofs.«175849_g14602888806852_cont_week2b_1353_2_alg».proof.Proof.RefValue
import Idealize.ShloMosaic.Adequacy
import Idealize.ShloMosaic.Init

noncomputable section

namespace Cert.Proof

open Idealize.ShloMosaic Idealize.ShloMosaic.TcCoe Idealize.SL.Sem Superposition

/-- The kernel as printed runs to the end and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs to the end and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on weights and bank, both programs end with the mixed images
    `(b, p, q) ↦ ∑ e, sw (e, b) · W (e, p, q)` of those arguments. -/
theorem algebraic : Cert.algebraic_KernelIdeal_ReferenceIdeal := by
  intro m ρ m' ρ' _ hagree
  refine ⟨fun c => mix (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq_mix, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
